-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩

class Facts : Prop where
  bcast_S_S16x64x56x56 : S_.BroadcastsInDim S16x64x56x56 (![] : Fin 0 → Fin S16x64x56x56.rank)
  reducesTo_S16x64x56x56_S_d0_1_2_3 : S16x64x56x56.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x64x56x56 .f32) (main_arg1 : FVec F S9x64 .f32) (main_arg2 : FVec F S64 .f32) : IVec S_ 1 :=
  let main_v0 : FVec F S16x64x56x56 .f32 := Host.absf main_arg0
  let main_cst : FVec F S_ .f32 := constant S_ .f32 0x7F800000#32
  let main_v1 : FVec F S16x64x56x56 .f32 := broadcastInDim S16x64x56x56 ![] bcast_S_S16x64x56x56 main_cst
  let main_v2 : IVec S16x64x56x56 1 := cmpf .olt main_v0 main_v1
  let main_c : IVec S_ 1 := constantI S_ 1 1#1
  let main_v3 : IVec S_ 1 := (fun x v => Host.reduce IntOp.andi x v reducesTo_S16x64x56x56_S_d0_1_2_3 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩
abbrev S16x64x58x58 : Shape := ⟨4, ![16, 64, 58, 58]⟩
abbrev S1024x58x58 : Shape := ⟨3, ![1024, 58, 58]⟩
abbrev S1x64 : Shape := ⟨2, ![1, 64]⟩
abbrev S1024x3136x64 : Shape := ⟨3, ![1024, 3136, 64]⟩
abbrev S16x58x58 : Shape := ⟨3, ![16, 58, 58]⟩
abbrev S16x3136x64 : Shape := ⟨3, ![16, 3136, 64]⟩
abbrev S16x56x56 : Shape := ⟨3, ![16, 56, 56]⟩
abbrev S16x56x56x1 : Shape := ⟨4, ![16, 56, 56, 1]⟩
abbrev S1x1x1x64 : Shape := ⟨4, ![1, 1, 1, 64]⟩
abbrev S16x56x56x64 : Shape := ⟨4, ![16, 56, 56, 64]⟩
abbrev S1x1x64 : Shape := ⟨3, ![1, 1, 64]⟩
abbrev S16x64x3136x64 : Shape := ⟨4, ![16, 64, 3136, 64]⟩

abbrev nBuf : Space → Nat
  | .hbm => 10
  | .vmem => 6
  | .smem => 0
  | _ => 0

abbrev bufTy : (tb : Table) → Fin (tcTables nBuf tb) → BufTy
  | .hbm, ⟨0, _⟩ => ⟨S16x64x56x56, .f32⟩
  | .hbm, ⟨1, _⟩ => ⟨S9x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S1024x58x58, .f32⟩
  | .hbm, ⟨7, _⟩ => ⟨S1x64, .f32⟩
  | .hbm, ⟨8, _⟩ => ⟨S1024x3136x64, .f32⟩
  | .hbm, ⟨9, _⟩ => ⟨S16x64x3136x64, .f32⟩
  | .local _ .vmem, ⟨0, _⟩ => ⟨S16x58x58, .f32⟩
  | .local _ .vmem, ⟨1, _⟩ => ⟨S16x58x58, .f32⟩
  | .local _ .vmem, ⟨2, _⟩ => ⟨S9x64, .f32⟩
  | .local _ .vmem, ⟨3, _⟩ => ⟨S1x64, .f32⟩
  | .local _ .vmem, ⟨4, _⟩ => ⟨S16x3136x64, .f32⟩
  | .local _ .vmem, ⟨5, _⟩ => ⟨S16x3136x64, .f32⟩
  | _, _ => ⟨S16x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x3136x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  shapeCasts_S16x64x58x58_S1024x58x58 : S16x64x58x58.ShapeCasts S1024x58x58
  shapeCasts_S64_S1x64 : S64.ShapeCasts S1x64
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S16x58x58_S16x56x56_0_0_0 : ∀ a, (![0, 0, 0] : Fin 3 → Nat) a + S16x56x56.size a ≤ S16x58x58.size a
  h_S16x56x56 : 0 < S16x56x56.numel
  shapeCasts_S16x56x56_S16x56x56 : S16x56x56.ShapeCasts S16x56x56
  slices_S9x64_o0_0_S1x64 : S9x64.Slices ![0, 0] S1x64
  shapeCasts_S1x64_S64 : S1x64.ShapeCasts S64
  shapeCasts_S16x56x56_S16x56x56x1 : S16x56x56.ShapeCasts S16x56x56x1
  shapeCasts_S64_S1x1x1x64 : S64.ShapeCasts S1x1x1x64
  broadcasts_S16x56x56x1_S16x56x56x64 : S16x56x56x1.Broadcasts S16x56x56x64
  broadcasts_S1x1x1x64_S16x56x56x64 : S1x1x1x64.Broadcasts S16x56x56x64
  inb_S16x58x58_S16x56x56_0_0_1 : ∀ a, (![0, 0, 1] : Fin 3 → Nat) a + S16x56x56.size a ≤ S16x58x58.size a
  slices_S9x64_o1_0_S1x64 : S9x64.Slices ![1, 0] S1x64
  inb_S16x58x58_S16x56x56_0_0_2 : ∀ a, (![0, 0, 2] : Fin 3 → Nat) a + S16x56x56.size a ≤ S16x58x58.size a
  slices_S9x64_o2_0_S1x64 : S9x64.Slices ![2, 0] S1x64
  inb_S16x58x58_S16x56x56_0_1_0 : ∀ a, (![0, 1, 0] : Fin 3 → Nat) a + S16x56x56.size a ≤ S16x58x58.size a
  slices_S9x64_o3_0_S1x64 : S9x64.Slices ![3, 0] S1x64
  inb_S16x58x58_S16x56x56_0_1_1 : ∀ a, (![0, 1, 1] : Fin 3 → Nat) a + S16x56x56.size a ≤ S16x58x58.size a
  slices_S9x64_o4_0_S1x64 : S9x64.Slices ![4, 0] S1x64
  inb_S16x58x58_S16x56x56_0_1_2 : ∀ a, (![0, 1, 2] : Fin 3 → Nat) a + S16x56x56.size a ≤ S16x58x58.size a
  slices_S9x64_o5_0_S1x64 : S9x64.Slices ![5, 0] S1x64
  inb_S16x58x58_S16x56x56_0_2_0 : ∀ a, (![0, 2, 0] : Fin 3 → Nat) a + S16x56x56.size a ≤ S16x58x58.size a
  slices_S9x64_o6_0_S1x64 : S9x64.Slices ![6, 0] S1x64
  inb_S16x58x58_S16x56x56_0_2_1 : ∀ a, (![0, 2, 1] : Fin 3 → Nat) a + S16x56x56.size a ≤ S16x58x58.size a
  slices_S9x64_o7_0_S1x64 : S9x64.Slices ![7, 0] S1x64
  inb_S16x58x58_S16x56x56_0_2_2 : ∀ a, (![0, 2, 2] : Fin 3 → Nat) a + S16x56x56.size a ≤ S16x58x58.size a
  slices_S9x64_o8_0_S1x64 : S9x64.Slices ![8, 0] S1x64
  shapeCasts_S16x56x56x64_S16x3136x64 : S16x56x56x64.ShapeCasts S16x3136x64
  shapeCasts_S1x64_S1x1x64 : S1x64.ShapeCasts S1x1x64
  broadcasts_S1x1x64_S16x3136x64 : S1x1x64.Broadcasts S16x3136x64
  inb_S16x3136x64_S16x3136x64_0_0_0 : ∀ a, (![0, 0, 0] : Fin 3 → Nat) a + S16x3136x64.size a ≤ S16x3136x64.size a
  h_S16x3136x64 : 0 < S16x3136x64.numel
  shapeCasts_S1024x3136x64_S16x64x3136x64 : S1024x3136x64.ShapeCasts S16x64x3136x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x58x58.size a ≤ S1024x58x58.size a
  hwx0_0 : ∀ i : grid0.Coords, EltTy.bits .f32 = 32 ∨ (Rect.block (s := S1024x58x58) S16x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x3136x64.size a ≤ S1024x3136x64.size a
  hwx0_3 : ∀ i : grid0.Coords, EltTy.bits .f32 = 32 ∨ (Rect.block (s := S1024x3136x64) S16x3136x64.size (cc0_transform_3 i) (hinb0_3 i)).WholeWords (EltTy.packing .f32)

variable [Facts₀]

abbrev win0_0 : Pipeline.Window sig grid0 :=
  Pipeline.Window.ofSpec (Memref.whole main_v1) S16x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x3136x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩
abbrev S16x64x58x58 : Shape := ⟨4, ![16, 64, 58, 58]⟩
abbrev S16x64x56x56x1 : Shape := ⟨5, ![16, 64, 56, 56, 1]⟩
abbrev S16x64x56x56x9 : Shape := ⟨5, ![16, 64, 56, 56, 9]⟩
abbrev S16x64x3136x9 : Shape := ⟨4, ![16, 64, 3136, 9]⟩
abbrev S16x64x3136x64 : Shape := ⟨4, ![16, 64, 3136, 64]⟩
abbrev S1x1x1x64 : Shape := ⟨4, ![1, 1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S16x64x56x56, .f32⟩
  | .hbm, ⟨1, _⟩ => ⟨S9x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S16x64x56x56, .f32⟩
  | .hbm, ⟨7, _⟩ => ⟨S16x64x56x56, .f32⟩
  | .hbm, ⟨8, _⟩ => ⟨S16x64x56x56, .f32⟩
  | .hbm, ⟨9, _⟩ => ⟨S16x64x56x56, .f32⟩
  | .hbm, ⟨10, _⟩ => ⟨S16x64x56x56, .f32⟩
  | .hbm, ⟨11, _⟩ => ⟨S16x64x56x56, .f32⟩
  | .hbm, ⟨12, _⟩ => ⟨S16x64x56x56, .f32⟩
  | .hbm, ⟨13, _⟩ => ⟨S16x64x56x56, .f32⟩
  | .hbm, ⟨14, _⟩ => ⟨S16x64x56x56, .f32⟩
  | .hbm, ⟨15, _⟩ => ⟨S16x64x56x56x1, .f32⟩
  | .hbm, ⟨16, _⟩ => ⟨S16x64x56x56x1, .f32⟩
  | .hbm, ⟨17, _⟩ => ⟨S16x64x56x56x1, .f32⟩
  | .hbm, ⟨18, _⟩ => ⟨S16x64x56x56x1, .f32⟩
  | .hbm, ⟨19, _⟩ => ⟨S16x64x56x56x1, .f32⟩
  | .hbm, ⟨20, _⟩ => ⟨S16x64x56x56x1, .f32⟩
  | .hbm, ⟨21, _⟩ => ⟨S16x64x56x56x1, .f32⟩
  | .hbm, ⟨22, _⟩ => ⟨S16x64x56x56x1, .f32⟩
  | .hbm, ⟨23, _⟩ => ⟨S16x64x56x56x1, .f32⟩
  | .hbm, ⟨24, _⟩ => ⟨S16x64x56x56x9, .f32⟩
  | .hbm, ⟨25, _⟩ => ⟨S16x64x3136x9, .f32⟩
  | .hbm, ⟨26, _⟩ => ⟨S16x64x3136x64, .f32⟩
  | .hbm, ⟨27, _⟩ => ⟨S1x1x1x64, .f32⟩
  | .hbm, ⟨28, _⟩ => ⟨S16x64x3136x64, .f32⟩
  | .hbm, ⟨29, _⟩ => ⟨S16x64x3136x64, .f32⟩
  | _, _ => ⟨S16x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x56x56x1_0_1_2_3 : S16x64x56x56.BroadcastsInDim S16x64x56x56x1 (![0, 1, 2, 3] : Fin 4 → Fin S16x64x56x56x1.rank)
  concatenates_S16x64x56x56x1_S16x64x56x56x1_S16x64x56x56x1_S16x64x56x56x1_S16x64x56x56x1_S16x64x56x56x1_S16x64x56x56x1_S16x64x56x56x1_S16x64x56x56x1_S16x64x56x56x9_d4 : Shape.Concatenates [S16x64x56x56x1, S16x64x56x56x1, S16x64x56x56x1, S16x64x56x56x1, S16x64x56x56x1, S16x64x56x56x1, S16x64x56x56x1, S16x64x56x56x1, S16x64x56x56x1] S16x64x56x56x9 4
  shapeCasts_S16x64x56x56x9_S16x64x3136x9 : S16x64x56x56x9.ShapeCasts S16x64x3136x9
  bcast_S64_S1x1x1x64_3 : S64.BroadcastsInDim S1x1x1x64 (![3] : Fin 1 → Fin S1x1x1x64.rank)
  bcast_S1x1x1x64_S16x64x3136x64_0_1_2_3 : S1x1x1x64.BroadcastsInDim S16x64x3136x64 (![0, 1, 2, 3] : Fin 4 → Fin S16x64x3136x64.rank)
  dot_S16x64x3136x9_S9x64_S16x64x3136x64_3_0_012_1_n_n_wf : DotDims.WF S16x64x3136x9 S9x64 S16x64x3136x64 [3] [0] [0, 1, 2] [1] [] []

variable [Facts₀]

def dot_S16x64x3136x9_S9x64_S16x64x3136x64_3_0_012_1_n_n : DotDims S16x64x3136x9 S9x64 S16x64x3136x64 where
  lhsContracting := [3]
  rhsContracting := [0]
  lhsNonContracting := [0, 1, 2]
  rhsNonContracting := [1]
  lhsBatch := []
  rhsBatch := []
  wf := dot_S16x64x3136x9_S9x64_S16x64x3136x64_3_0_012_1_n_n_wf

class Facts : Prop extends Facts₀ where

variable [Facts]
-- ==== Proof.Spec.lean ====
/-
  The mathematics of the 3×3 unfold followed by a per-patch linear map, stated once, with no program in sight.

  An image of 56×56 pixels, zero-padded by one pixel on every side to 58×58, is unfolded into 3136 = 56·56 patches:
  the patch at output position `p` (row `p / 56`, column `p % 56`) holds the nine pixels of the 3×3 window whose
  top-left corner is that position in the padded image, in row-major order: tap `k` is `k / 3` rows down and
  `k % 3` columns right of the corner. Each patch is then mapped through a 9×64 matrix and a bias is added:

      out[n, c, p, e] = (∑ k < 9, xpad[n, c, p / 56 + k / 3, p % 56 + k % 3] · W[k, e]) + b[e].

  Everything here is over the extended reals, where addition is commutative and associative without any
  finiteness assumption, so the order in which the nine products are added does not matter.
-/
import Idealize.ShloMosaic.PureOps.Ideal
import Idealize.ShloMosaic.Lib.ValueIdx
import Mathlib.Algebra.BigOperators.Fin

noncomputable section

namespace Cert.Unfold3

open Idealize.ShloMosaic Idealize.ShloMosaic.ValueIdx

/-- Row of the padded image read by tap `k` of the window at output position `p`. -/
def tapRow (p : Fin 3136) (k : Fin 9) : Fin 58 := ⟨p.val / 56 + k.val / 3, by have := p.isLt; have := k.isLt; omega⟩
/-- Column of the padded image read by tap `k` of the window at output position `p`. -/
def tapCol (p : Fin 3136) (k : Fin 9) : Fin 58 := ⟨p.val % 56 + k.val % 3, by have := p.isLt; have := k.isLt; omega⟩

/-- The unfold-and-linear map on a batch of 16×64 padded images: the one function both programs compute. -/
def patchLinear (xp : (⟨4, ![16, 64, 58, 58]⟩ : Shape).Idx → EReal) (W : (⟨2, ![9, 64]⟩ : Shape).Idx → EReal)
    (b : (⟨1, ![64]⟩ : Shape).Idx → EReal) : (⟨4, ![16, 64, 3136, 64]⟩ : Shape).Idx → EReal :=
  fun i => (∑ k : Fin 9, xp (ix4 (i 0 : Fin 16) (i 1 : Fin 64) (tapRow (i 2) k) (tapCol (i 2) k)) * W (ix2 k (i 3 : Fin 64)))
    + b (ix1 (i 3 : Fin 64))

/-- The same map on images numbered by one flat index `r = 64·n + c` (any number `R` of them), the bias given as a
    one-row matrix: what a kernel working on a stack of padded images produces. -/
def patchLinearRows (R : Nat) (x : (⟨3, ![R, 58, 58]⟩ : Shape).Idx → EReal) (W : (⟨2, ![9, 64]⟩ : Shape).Idx → EReal)
    (b : (⟨2, ![1, 64]⟩ : Shape).Idx → EReal) : (⟨3, ![R, 3136, 64]⟩ : Shape).Idx → EReal :=
  fun j => (∑ k : Fin 9, x (ix3 (j 0 : Fin R) (tapRow (j 1) k) (tapCol (j 1) k)) * W (ix2 k (j 2 : Fin 64)))
    + b (ix2 (0 : Fin 1) (j 2 : Fin 64))

/-- A sum over nine terms, written out from the left: the order in which a straight-line program adds them. -/
theorem sum_nine {M : Type*} [AddCommMonoid M] (f : Fin 9 → M) :
    ∑ k : Fin 9, f k = f 0 + f 1 + f 2 + f 3 + f 4 + f 5 + f 6 + f 7 + f 8 := by
  rw [Fin.sum_univ_castSucc, Fin.sum_univ_eight]
  rfl

/-- Sixteen consecutive images of a stack, mapped, are the corresponding sixteen rows of the mapped stack: the map treats
    each image on its own. `x0` is the block of images number `16·T … 16·T + 15` of `X`, `x1` and `x2` are the matrix and the
    bias row; `j` indexes the block's result and `i` the same element of the stack's. -/
theorem rows_block (X : (⟨3, ![1024, 58, 58]⟩ : Shape).Idx → EReal) (W : (⟨2, ![9, 64]⟩ : Shape).Idx → EReal)
    (B : (⟨2, ![1, 64]⟩ : Shape).Idx → EReal) (x0 : (⟨3, ![16, 58, 58]⟩ : Shape).Idx → EReal)
    (x1 : (⟨2, ![9, 64]⟩ : Shape).Idx → EReal) (x2 : (⟨2, ![1, 64]⟩ : Shape).Idx → EReal) (T : Nat)
    (h0 : ∀ (a : Fin 16) (r s : Fin 58) (hb : T * 16 + a.val < 1024), x0 (ix3 a r s) = X (ix3 (⟨T * 16 + a.val, hb⟩ : Fin 1024) r s))
    (h1 : x1 = W) (h2 : x2 = B)
    (j : (⟨3, ![16, 3136, 64]⟩ : Shape).Idx) (i : (⟨3, ![1024, 3136, 64]⟩ : Shape).Idx)
    (hi0 : (i 0).val = T * 16 + (j 0).val) (hi1 : (i 1).val = (j 1).val) (hi2 : (i 2).val = (j 2).val) :
    patchLinearRows 16 x0 x1 x2 j = patchLinearRows 1024 X W B i := by
  subst h1 h2
  have hb : T * 16 + (j 0).val < 1024 := hi0 ▸ (i 0).isLt
  have e1 : (i 1 : Fin 3136) = (j 1 : Fin 3136) := Fin.ext hi1
  have e2 : (i 2 : Fin 64) = (j 2 : Fin 64) := Fin.ext hi2
  have e0 : (i 0 : Fin 1024) = (⟨T * 16 + (j 0).val, hb⟩ : Fin 1024) := Fin.ext hi0
  show (∑ k : Fin 9, x0 (ix3 (j 0 : Fin 16) (tapRow (j 1) k) (tapCol (j 1) k)) * x1 (ix2 k (j 2 : Fin 64))) + x2 (ix2 (0 : Fin 1) (j 2 : Fin 64))
    = (∑ k : Fin 9, X (ix3 (i 0 : Fin 1024) (tapRow (i 1) k) (tapCol (i 1) k)) * x1 (ix2 k (i 2 : Fin 64))) + x2 (ix2 (0 : Fin 1) (i 2 : Fin 64))
  rw [e0, e1, e2]
  exact congrArg (· + _) (Finset.sum_congr rfl fun k _ => congrArg (· * _) (h0 (j 0) (tapRow (j 1) k) (tapCol (j 1) k) hb))

end Cert.Unfold3

end
-- ==== Proof.RefValue.lean ====
/-
  What the reference computes, index by index.

  The reference pads each image, cuts the nine shifted 56×56 slices of the padded image (slice `k` starts `k / 3` rows
  down and `k % 3` columns right), stacks them along a new last axis, flattens the two spatial axes into one patch axis
  `p = 56·row + col`, contracts the stack axis against the 9×64 matrix and adds the bias. So its patches array at
  `(n, c, p, k)` is the padded image at `(n, c, p / 56 + k / 3, p % 56 + k % 3)`, and its result is `patchLinear` of
  the padded image.
-/
import proofs.«122599_j46059229282884_1_alg».proof.Proof.Gen.ReferenceIdeal.Read
import proofs.«122599_j46059229282884_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Unfold3

/-- A slice of the padded image starting `di` rows down and `dj` columns right, given a unit last axis, read at an
    index: the padded image `di` rows and `dj` columns further. -/
theorem shifted_slice_apply (y : (⟨S16x64x58x58, .f32⟩ : BufTy).Contents (Elt Ideal)) (di dj : Nat)
    (hs : S16x64x58x58.Slices ![0, 0, di, dj] S16x64x56x56)
    (n : Fin 16) (c : Fin 64) (r s : Fin 56) (hdi : di + r.val < 58) (hdj : dj + s.val < 58) :
    broadcastInDim S16x64x56x56x1 ![0, 1, 2, 3] bcast_S16x64x56x56_S16x64x56x56x1_0_1_2_3
        (extractStridedSlice S16x64x56x56 ![0, 0, di, dj] y hs) (ix5 n c r s (0 : Fin 1))
      = y (ix4 n c (⟨di + r.val, hdi⟩ : Fin 58) (⟨dj + s.val, hdj⟩ : Fin 58)) := by
  refine (broadcastInDim_apply _ bcast_S16x64x56x56_S16x64x56x56x1_0_1_2_3 _ (ix5 n c r s (0 : Fin 1)) (ix4 n c r s) (fun a => match a with
    | ⟨0, _⟩ => by show n.val = if (16 : Nat) = 1 then 0 else n.val; rw [if_neg (by decide)]
    | ⟨1, _⟩ => by show c.val = if (64 : Nat) = 1 then 0 else c.val; rw [if_neg (by decide)]
    | ⟨2, _⟩ => by show r.val = if (56 : Nat) = 1 then 0 else r.val; rw [if_neg (by decide)]
    | ⟨3, _⟩ => by show s.val = if (56 : Nat) = 1 then 0 else s.val; rw [if_neg (by decide)])).trans ?_
  exact extractStridedSlice_apply ![0, 0, di, dj] y hs (ix4 n c r s) _ (fun a => match a with
    | ⟨0, _⟩ => by show n.val = 0 + n.val; omega
    | ⟨1, _⟩ => by show c.val = 0 + c.val; omega
    | ⟨2, _⟩ => by show di + r.val = di + r.val; rfl
    | ⟨3, _⟩ => by show dj + s.val = dj + s.val; rfl)

/-- Row and column of output position `p`. -/
abbrev posRow (p : Fin 3136) : Fin 56 := ⟨p.val / 56, by have := p.isLt; omega⟩
abbrev posCol (p : Fin 3136) : Fin 56 := ⟨p.val % 56, by omega⟩

/-- Off the stack axis, the element `(n, c, p, k)` of the flattened patches array sits at `(n, c, p / 56, p % 56)` of the stack. -/
theorem stack_off_axis (n : Fin 16) (c : Fin 64) (p : Fin 3136) (k : Fin 9) :
    ∀ b : Fin S16x64x56x56x1.rank, b.cast (rfl : S16x64x56x56x1.rank = S16x64x56x56x9.rank) ≠ (4 : Fin S16x64x56x56x9.rank) →
      ((ix5 n c (posRow p) (posCol p) (0 : Fin 1) : S16x64x56x56x1.Idx) b).val
        = (idx_main_v20 (ix4 n c p k) (b.cast (rfl : S16x64x56x56x1.rank = S16x64x56x56x9.rank))).val := by
  have hn := n.isLt; have hc := c.isLt; have hp := p.isLt; have hk := k.isLt
  intro b hb
  match b with
  | ⟨0, _⟩ => show n.val = (((n.val * 64 + c.val) * 3136 + p.val) * 9 + k.val) / 1806336; omega
  | ⟨1, _⟩ => show c.val = (((n.val * 64 + c.val) * 3136 + p.val) * 9 + k.val) / 28224 % 64; omega
  | ⟨2, _⟩ => show p.val / 56 = (((n.val * 64 + c.val) * 3136 + p.val) * 9 + k.val) / 504 % 56; omega
  | ⟨3, _⟩ => show p.val % 56 = (((n.val * 64 + c.val) * 3136 + p.val) * 9 + k.val) / 9 % 56; omega
  | ⟨4, _⟩ => exact absurd rfl hb

/-- On the stack axis it sits at `k`. -/
theorem stack_on_axis (n : Fin 16) (c : Fin 64) (p : Fin 3136) (k : Fin 9) :
    k.val + ((ix5 n c (posRow p) (posCol p) (0 : Fin 1) : S16x64x56x56x1.Idx)
        ((4 : Fin S16x64x56x56x9.rank).cast (rfl : S16x64x56x56x1.rank = S16x64x56x56x9.rank).symm)).val
      = (idx_main_v20 (ix4 n c p k) (4 : Fin S16x64x56x56x9.rank)).val := by
  have hn := n.isLt; have hc := c.isLt; have hp := p.isLt; have hk := k.isLt
  show k.val + 0 = (((n.val * 64 + c.val) * 3136 + p.val) * 9 + k.val) % 9
  omega

/-- Tap `k` of the window at position `p`, from its row and column offsets. -/
theorem tap_eq (n : Fin 16) (c : Fin 64) (p : Fin 3136) (k : Fin 9) (di dj : Nat) (hdi : di = k.val / 3) (hdj : dj = k.val % 3)
    (h1 : di + (posRow p).val < 58) (h2 : dj + (posCol p).val < 58) :
    (ix4 n c (⟨di + (posRow p).val, h1⟩ : Fin 58) (⟨dj + (posCol p).val, h2⟩ : Fin 58) : S16x64x58x58.Idx)
      = ix4 n c (tapRow p k) (tapCol p k) := by
  subst hdi hdj
  funext a
  apply Fin.ext
  match a with
  | ⟨0, _⟩ => rfl
  | ⟨1, _⟩ => rfl
  | ⟨2, _⟩ => show k.val / 3 + p.val / 56 = p.val / 56 + k.val / 3; omega
  | ⟨3, _⟩ => show k.val % 3 + p.val % 56 = p.val % 56 + k.val % 3; omega

/-- The nine shifted slices, each with a unit last axis, in the order they are stacked. -/
abbrev stackList (x0 : (⟨S16x64x56x56, .f32⟩ : BufTy).Contents (Elt Ideal)) : List ((s : Shape) × (s.Idx → Elt Ideal .f32)) :=
  [⟨S16x64x56x56x1, val_main_v10 (F := Ideal) x0⟩, ⟨S16x64x56x56x1, val_main_v11 (F := Ideal) x0⟩, ⟨S16x64x56x56x1, val_main_v12 (F := Ideal) x0⟩,
   ⟨S16x64x56x56x1, val_main_v13 (F := Ideal) x0⟩, ⟨S16x64x56x56x1, val_main_v14 (F := Ideal) x0⟩, ⟨S16x64x56x56x1, val_main_v15 (F := Ideal) x0⟩,
   ⟨S16x64x56x56x1, val_main_v16 (F := Ideal) x0⟩, ⟨S16x64x56x56x1, val_main_v17 (F := Ideal) x0⟩, ⟨S16x64x56x56x1, val_main_v18 (F := Ideal) x0⟩]

/-- The stack at the flat position of `(n, c, p, k)` is its piece number `k` at `(n, c, p / 56, p % 56, 0)`; which piece that
    is, and that `k` unit pieces precede it, each caller says for its own literal `k`. -/
theorem stack_piece (x0 : (⟨S16x64x56x56, .f32⟩ : BufTy).Contents (Elt Ideal)) (n : Fin 16) (c : Fin 64) (p : Fin 3136) (k : Fin 9)
    (kk : Nat) (hkk : kk = k.val) (hlen : kk < 9)
    (piece : S16x64x56x56x1.Idx → Elt Ideal .f32) (hpiece : (stackList x0)[kk]'(show kk < (stackList x0).length from hlen) = ⟨S16x64x56x56x1, piece⟩)
    (hpre : ((((stackList x0).take kk).map (·.1)).map fun s => if h : s.rank = S16x64x56x56x9.rank then s.size ((4 : Fin S16x64x56x56x9.rank).cast h.symm) else 0).sum = kk) :
    val_main_v19 (F := Ideal) x0 (idx_main_v20 (ix4 n c p k)) = piece (ix5 n c (posRow p) (posCol p) (0 : Fin 1)) := by
  subst hkk
  unfold val_main_v19
  exact concatenate_apply_piece (4 : Fin S16x64x56x56x9.rank) (stackList x0) _ (idx_main_v20 (ix4 n c p k)) k.val (show k.val < (stackList x0).length from hlen) S16x64x56x56x1 piece hpiece rfl
    k.val hpre (ix5 n c (posRow p) (posCol p) (0 : Fin 1)) (stack_off_axis n c p k) (stack_on_axis n c p k)

/-- Piece `k` of the stack, the slice shifted by `(di, dj) = (k / 3, k % 3)`, at `(n, c, p / 56, p % 56, 0)` is the padded image
    at tap `k` of the window at position `p`. -/
theorem piece_apply (x0 : (⟨S16x64x56x56, .f32⟩ : BufTy).Contents (Elt Ideal)) (n : Fin 16) (c : Fin 64) (p : Fin 3136) (k : Fin 9)
    (kk : Nat) (hkk : kk = k.val) (di dj : Nat) (hdi : di = kk / 3) (hdj : dj = kk % 3) (hs : S16x64x58x58.Slices ![0, 0, di, dj] S16x64x56x56) :
    broadcastInDim S16x64x56x56x1 ![0, 1, 2, 3] bcast_S16x64x56x56_S16x64x56x56x1_0_1_2_3
        (extractStridedSlice S16x64x56x56 ![0, 0, di, dj] (val_main_v0 (F := Ideal) x0) hs) (ix5 n c (posRow p) (posCol p) (0 : Fin 1))
      = val_main_v0 (F := Ideal) x0 (ix4 n c (tapRow p k) (tapCol p k)) := by
  subst hkk
  have hp := p.isLt; have hk := k.isLt
  have h1 : di + (posRow p).val < 58 := by show di + p.val / 56 < 58; omega
  have h2 : dj + (posCol p).val < 58 := by show dj + p.val % 56 < 58; omega
  exact (shifted_slice_apply (val_main_v0 x0) di dj hs n c (posRow p) (posCol p) h1 h2).trans (congrArg _ (tap_eq n c p k di dj hdi hdj h1 h2))

/-- The patches array at `(n, c, p, k)` is the padded image at tap `k` of the window at position `p`: piece `k` of the
    stack is the slice shifted by `(k / 3, k % 3)`, tap by tap. -/
theorem patches_apply (x0 : (⟨S16x64x56x56, .f32⟩ : BufTy).Contents (Elt Ideal)) (n : Fin 16) (c : Fin 64) (p : Fin 3136) (k : Fin 9) :
    val_main_v20 (F := Ideal) x0 (ix4 n c p k) = val_main_v0 (F := Ideal) x0 (ix4 n c (tapRow p k) (tapCol p k)) := by
  rw [val_main_v20_apply]
  match k with
  | ⟨0, hk⟩ => exact (stack_piece x0 n c p ⟨0, hk⟩ 0 rfl (by decide) (val_main_v10 x0) rfl rfl).trans (piece_apply x0 n c p ⟨0, hk⟩ 0 rfl 0 0 rfl rfl _)
  | ⟨1, hk⟩ => exact (stack_piece x0 n c p ⟨1, hk⟩ 1 rfl (by decide) (val_main_v11 x0) rfl rfl).trans (piece_apply x0 n c p ⟨1, hk⟩ 1 rfl 0 1 rfl rfl _)
  | ⟨2, hk⟩ => exact (stack_piece x0 n c p ⟨2, hk⟩ 2 rfl (by decide) (val_main_v12 x0) rfl rfl).trans (piece_apply x0 n c p ⟨2, hk⟩ 2 rfl 0 2 rfl rfl _)
  | ⟨3, hk⟩ => exact (stack_piece x0 n c p ⟨3, hk⟩ 3 rfl (by decide) (val_main_v13 x0) rfl rfl).trans (piece_apply x0 n c p ⟨3, hk⟩ 3 rfl 1 0 rfl rfl _)
  | ⟨4, hk⟩ => exact (stack_piece x0 n c p ⟨4, hk⟩ 4 rfl (by decide) (val_main_v14 x0) rfl rfl).trans (piece_apply x0 n c p ⟨4, hk⟩ 4 rfl 1 1 rfl rfl _)
  | ⟨5, hk⟩ => exact (stack_piece x0 n c p ⟨5, hk⟩ 5 rfl (by decide) (val_main_v15 x0) rfl rfl).trans (piece_apply x0 n c p ⟨5, hk⟩ 5 rfl 1 2 rfl rfl _)
  | ⟨6, hk⟩ => exact (stack_piece x0 n c p ⟨6, hk⟩ 6 rfl (by decide) (val_main_v16 x0) rfl rfl).trans (piece_apply x0 n c p ⟨6, hk⟩ 6 rfl 2 0 rfl rfl _)
  | ⟨7, hk⟩ => exact (stack_piece x0 n c p ⟨7, hk⟩ 7 rfl (by decide) (val_main_v17 x0) rfl rfl).trans (piece_apply x0 n c p ⟨7, hk⟩ 7 rfl 2 1 rfl rfl _)
  | ⟨8, hk⟩ => exact (stack_piece x0 n c p ⟨8, hk⟩ 8 rfl (by decide) (val_main_v18 x0) rfl rfl).trans (piece_apply x0 n c p ⟨8, hk⟩ 8 rfl 2 2 rfl rfl _)

/-- THE REFERENCE'S RESULT is `patchLinear` of the padded image, the matrix and the bias: its `dot_general` is the sum
    over the nine taps of patch entry times matrix entry, and each patch entry is the padded image at its tap. -/
theorem reference_eq (x0 : (⟨S16x64x56x56, .f32⟩ : BufTy).Contents (Elt Ideal)) (x1 : (⟨S9x64, .f32⟩ : BufTy).Contents (Elt Ideal))
    (x2 : (⟨S64, .f32⟩ : BufTy).Contents (Elt Ideal)) :
    val_main_v24 (F := Ideal) x0 x1 x2 = patchLinear (val_main_v0 (F := Ideal) x0) x1 x2 := by
  funext i
  obtain ⟨n, c, p, e, rfl⟩ : ∃ (n : Fin 16) (c : Fin 64) (p : Fin 3136) (e : Fin 64), i = ix4 n c p e := ⟨i 0, i 1, i 2, i 3, eq_ix4 i⟩
  have hl : ∀ k : Fin 9, lidx_main_v21 (ix4 n c p e) k = ix4 n c p k := fun k => funext fun a => Fin.ext (by
    match a with | ⟨0, _⟩ => rfl | ⟨1, _⟩ => rfl | ⟨2, _⟩ => rfl | ⟨3, _⟩ => rfl)
  have hr : ∀ k : Fin 9, ridx_main_v21 (ix4 n c p e) k = ix2 k e := fun k => funext fun a => Fin.ext (by
    match a with | ⟨0, _⟩ => rfl | ⟨1, _⟩ => rfl)
  have hb : idx_main_v22 (idx_main_v23 (ix4 n c p e)) = ix1 e := funext fun a => Fin.ext (by
    match a with | ⟨0, _⟩ => rfl)
  rw [val_main_v24_apply, val_main_v21_apply, val_main_v23_apply, val_main_v22_apply, hb]
  simp only [hl, hr, patches_apply]
  rfl

end Cert.ReferenceIdeal.RefValue

end
-- ==== Proof.KernelBody.lean ====
/-
  What one grid point of the kernel leaves in its output block, index by index.

  A grid point holds 16 padded images (16×58×58), the 9×64 matrix and the bias as a 1×64 row. The body reads the nine
  56×56 windows of the padded images that start `k / 3` rows down and `k % 3` columns right of the corner
  (`k = 0 … 8`), multiplies window `k` by row `k` of the matrix (an outer product over the last axis), adds the nine
  products from the left, flattens the two spatial axes into the patch axis `p = 56·row + col` and adds the bias row.
  At the index `(a, p, e)` that is `patchLinearRows 16`: the nine products added in order are the sum over the nine taps.
-/
import proofs.«122599_j46059229282884_1_alg».proof.Proof.Gen.KernelIdeal.Frame
import proofs.«122599_j46059229282884_1_alg».proof.Proof.Spec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Unfold3

/-- Row and column of output position `p`. -/
abbrev posRow (p : Fin 3136) : Fin 56 := ⟨p.val / 56, by have := p.isLt; omega⟩
abbrev posCol (p : Fin 3136) : Fin 56 := ⟨p.val % 56, by omega⟩

/-- A 16×56×56 window given a unit last axis and repeated along 64 channels reads the window. -/
theorem window_bcast_apply (v : Vec Ideal S16x56x56 .f32) (h1 : S16x56x56.ShapeCasts S16x56x56)
    (h2 : S16x56x56.ShapeCasts S16x56x56x1) (h3 : S16x56x56x1.Broadcasts S16x56x56x64)
    (a : Fin 16) (r s : Fin 56) (e : Fin 64) :
    broadcastTo S16x56x56x64 (shapeCast S16x56x56x1 (shapeCast S16x56x56 v h1) h2) h3 (ix4 a r s e) = v (ix3 a r s) := by
  rw [shapeCast_self]
  refine (broadcastTo_apply _ h3 (ix4 a r s e) (ix4 a r s (0 : Fin 1)) (fun x => match x with
    | ⟨0, _⟩ => by show a.val = if (16 : Nat) = 1 then 0 else a.val; rw [if_neg (by decide)]
    | ⟨1, _⟩ => by show r.val = if (56 : Nat) = 1 then 0 else r.val; rw [if_neg (by decide)]
    | ⟨2, _⟩ => by show s.val = if (56 : Nat) = 1 then 0 else s.val; rw [if_neg (by decide)]
    | ⟨3, _⟩ => by show 0 = if (1 : Nat) = 1 then 0 else e.val; rw [if_pos rfl])).trans ?_
  exact shapeCast_apply v h2 (ix4 a r s (0 : Fin 1)) (ix3 a r s) (by
    rw [Shape.rowMajor_val_three, Shape.rowMajor_val_four]
    show (a.val * 56 + r.val) * 56 + s.val = ((a.val * 56 + r.val) * 56 + s.val) * 1 + 0
    omega)

/-- Row `k` of the 9×64 matrix, repeated over a 16×56×56 window, reads the matrix at `(k, e)`. -/
theorem row_bcast_apply (w : Vec Ideal S9x64 .f32) (k : Nat) (hk : k < 9) (hs : S9x64.Slices ![k, 0] S1x64)
    (h1 : S1x64.ShapeCasts S64) (h2 : S64.ShapeCasts S1x1x1x64) (h3 : S1x1x1x64.Broadcasts S16x56x56x64)
    (a : Fin 16) (r s : Fin 56) (e : Fin 64) :
    broadcastTo S16x56x56x64 (shapeCast S1x1x1x64 (shapeCast S64 (extractStridedSlice S1x64 ![k, 0] w hs) h1) h2) h3 (ix4 a r s e)
      = w (ix2 (⟨k, hk⟩ : Fin 9) e) := by
  refine (broadcastTo_apply _ h3 (ix4 a r s e) (ix4 (0 : Fin 1) (0 : Fin 1) (0 : Fin 1) e) (fun x => match x with
    | ⟨0, _⟩ => by show 0 = if (1 : Nat) = 1 then 0 else a.val; rw [if_pos rfl]
    | ⟨1, _⟩ => by show 0 = if (1 : Nat) = 1 then 0 else r.val; rw [if_pos rfl]
    | ⟨2, _⟩ => by show 0 = if (1 : Nat) = 1 then 0 else s.val; rw [if_pos rfl]
    | ⟨3, _⟩ => by show e.val = if (64 : Nat) = 1 then 0 else e.val; rw [if_neg (by decide)])).trans ?_
  refine (shapeCast_apply _ h2 (ix4 (0 : Fin 1) (0 : Fin 1) (0 : Fin 1) e) (ix1 e) (by
    rw [Shape.rowMajor_val_one, Shape.rowMajor_val_four]
    show e.val = ((0 * 1 + 0) * 1 + 0) * 64 + e.val
    omega)).trans ?_
  refine (shapeCast_apply _ h1 (ix1 e) (ix2 (0 : Fin 1) e) (by
    rw [Shape.rowMajor_val_two, Shape.rowMajor_val_one]
    show 0 * 64 + e.val = e.val
    omega)).trans ?_
  exact extractStridedSlice_apply ![k, 0] w hs (ix2 (0 : Fin 1) e) (ix2 (⟨k, hk⟩ : Fin 9) e) (fun x => match x with
    | ⟨0, _⟩ => by show k = k + 0; omega
    | ⟨1, _⟩ => by show e.val = 0 + e.val; omega)

/-- A load of the block of padded images through the 16×56×56 window that starts `di` rows down and `dj` columns
    right reads the block `di` rows and `dj` columns further. -/
theorem window_ld_apply (x0 : Vec Ideal S16x58x58 .f32) (di dj : Nat)
    (inb : ∀ a, (![0, di, dj] : Fin 3 → Nat) a + S16x56x56.size a ≤ S16x58x58.size a)
    (a : Fin 16) (r s : Fin 56) (h1 : di + r.val < 58) (h2 : dj + s.val < 58) :
    View.ld x0 (Rect.unit (s := S16x58x58) ![0, di, dj] S16x56x56.size inb) (ix3 a r s)
      = x0 (ix3 a (⟨di + r.val, h1⟩ : Fin 58) (⟨dj + s.val, h2⟩ : Fin 58)) := by
  show x0 ((Rect.unit (s := S16x58x58) ![0, di, dj] S16x56x56.size inb).idx (ix3 a r s)) = _
  refine congrArg x0 (funext fun x => Fin.ext ?_)
  match x with
  | ⟨0, _⟩ => show 0 + 1 * a.val = a.val; omega
  | ⟨1, _⟩ => show di + 1 * r.val = di + r.val; omega
  | ⟨2, _⟩ => show dj + 1 * s.val = dj + s.val; omega

/-- The first four taps' products, added from the left. -/
theorem pay3_apply (v0 : Vec Ideal S9x64 .f32) (v3 v12 v22 v32 : Vec Ideal S16x56x56 .f32) (a : Fin 16) (r s : Fin 56) (e : Fin 64) :
    k0_pay3 (F := Ideal) v0 v3 v12 v22 v32 (ix4 a r s e)
      = v3 (ix3 a r s) * v0 (ix2 (⟨0, by decide⟩ : Fin 9) e) + v12 (ix3 a r s) * v0 (ix2 (⟨1, by decide⟩ : Fin 9) e)
        + v22 (ix3 a r s) * v0 (ix2 (⟨2, by decide⟩ : Fin 9) e) + v32 (ix3 a r s) * v0 (ix2 (⟨3, by decide⟩ : Fin 9) e) := by
  unfold k0_pay3
  simp only [addf_apply, mulf_apply]
  rw [window_bcast_apply v3, window_bcast_apply v12, window_bcast_apply v22, window_bcast_apply v32,
    row_bcast_apply v0 0 (by decide), row_bcast_apply v0 1 (by decide), row_bcast_apply v0 2 (by decide), row_bcast_apply v0 3 (by decide)]

/-- The next four taps' products, added to what the first four gave. -/
theorem pay4_apply (v0 : Vec Ideal S9x64 .f32) (v41 : FVec Ideal S16x56x56x64 .f32) (v42 v52 v62 v72 : Vec Ideal S16x56x56 .f32)
    (a : Fin 16) (r s : Fin 56) (e : Fin 64) :
    k0_pay4 (F := Ideal) v0 v41 v42 v52 v62 v72 (ix4 a r s e)
      = v41 (ix4 a r s e) + v42 (ix3 a r s) * v0 (ix2 (⟨4, by decide⟩ : Fin 9) e) + v52 (ix3 a r s) * v0 (ix2 (⟨5, by decide⟩ : Fin 9) e)
        + v62 (ix3 a r s) * v0 (ix2 (⟨6, by decide⟩ : Fin 9) e) + v72 (ix3 a r s) * v0 (ix2 (⟨7, by decide⟩ : Fin 9) e) := by
  unfold k0_pay4
  simp only [addf_apply, mulf_apply]
  rw [window_bcast_apply v42, window_bcast_apply v52, window_bcast_apply v62, window_bcast_apply v72,
    row_bcast_apply v0 4 (by decide), row_bcast_apply v0 5 (by decide), row_bcast_apply v0 6 (by decide), row_bcast_apply v0 7 (by decide)]

/-- The bias row repeated over the 16×3136 patches reads the row at `e`. -/
theorem bias_bcast_apply (b : FVec Ideal S1x64 .f32) (h1 : S1x64.ShapeCasts S1x1x64) (h2 : S1x1x64.Broadcasts S16x3136x64)
    (a : Fin 16) (p : Fin 3136) (e : Fin 64) :
    broadcastTo S16x3136x64 (shapeCast S1x1x64 b h1) h2 (ix3 a p e) = b (ix2 (0 : Fin 1) e) := by
  refine (broadcastTo_apply _ h2 (ix3 a p e) (ix3 (0 : Fin 1) (0 : Fin 1) e) (fun x => match x with
    | ⟨0, _⟩ => by show 0 = if (1 : Nat) = 1 then 0 else a.val; rw [if_pos rfl]
    | ⟨1, _⟩ => by show 0 = if (1 : Nat) = 1 then 0 else p.val; rw [if_pos rfl]
    | ⟨2, _⟩ => by show e.val = if (64 : Nat) = 1 then 0 else e.val; rw [if_neg (by decide)])).trans ?_
  exact shapeCast_apply b h1 (ix3 (0 : Fin 1) (0 : Fin 1) e) (ix2 (0 : Fin 1) e) (by
    rw [Shape.rowMajor_val_two, Shape.rowMajor_val_three]
    show 0 * 64 + e.val = (0 * 1 + 0) * 64 + e.val
    omega)

/-- Flattening the two spatial axes: position `p` of the patch axis is row `p / 56`, column `p % 56`. -/
theorem flatten_apply (v : FVec Ideal S16x56x56x64 .f32) (h : S16x56x56x64.ShapeCasts S16x3136x64) (a : Fin 16) (p : Fin 3136) (e : Fin 64) :
    shapeCast S16x3136x64 v h (ix3 a p e) = v (ix4 a (posRow p) (posCol p) e) :=
  shapeCast_apply v h (ix3 a p e) (ix4 a (posRow p) (posCol p) e) (by
    rw [Shape.rowMajor_val_four, Shape.rowMajor_val_three]
    have hp := p.isLt
    show ((a.val * 56 + p.val / 56) * 56 + p.val % 56) * 64 + e.val = (a.val * 3136 + p.val) * 64 + e.val
    omega)

/-- The ninth tap's product added, the spatial axes flattened, the bias added. -/
theorem pay1_apply (v2 : FVec Ideal S1x64 .f32) (v81 : FVec Ideal S16x56x56x64 .f32) (v86 : FVec Ideal S16x56x56x1 .f32)
    (v87 : FVec Ideal S1x1x1x64 .f32) (a : Fin 16) (p : Fin 3136) (e : Fin 64) :
    k0_pay1 (F := Ideal) v2 v81 v86 v87 (ix3 a p e)
      = v81 (ix4 a (posRow p) (posCol p) e)
          + broadcastTo S16x56x56x64 v86 broadcasts_S16x56x56x1_S16x56x56x64 (ix4 a (posRow p) (posCol p) e)
            * broadcastTo S16x56x56x64 v87 broadcasts_S1x1x1x64_S16x56x56x64 (ix4 a (posRow p) (posCol p) e)
        + v2 (ix2 (0 : Fin 1) e) := by
  unfold k0_pay1
  simp only [addf_apply]
  rw [flatten_apply, bias_bcast_apply]
  rfl

/-- WHAT THE BODY LEAVES in the output block, from the three input blocks: `patchLinearRows` of them. -/
theorem block_eq (x0 : Vec Ideal S16x58x58 .f32) (x1 : Vec Ideal S9x64 .f32) (x2 : Vec Ideal S1x64 .f32) :
    out0_3 (F := Ideal) x0 x1 x2 = patchLinearRows 16 x0 x1 x2 := by
  have hz3 : (![0, 0, 0] : Fin 3 → Nat) = fun _ => 0 := funext fun a => by fin_cases a <;> rfl
  have hz2 : (![0, 0] : Fin 2 → Nat) = fun _ => 0 := funext fun a => by fin_cases a <;> rfl
  funext j
  obtain ⟨a, p, e, rfl⟩ : ∃ (a : Fin 16) (p : Fin 3136) (e : Fin 64), j = ix3 a p e := ⟨j 0, j 1, j 2, eq_ix3 j⟩
  unfold out0_3
  rw [View.canon_unit_zero hz3]
  simp only [View.ld_unit_zero (S := S9x64) hz2, View.ld_unit_zero (S := S1x64) hz2]
  rw [pay1_apply, pay4_apply, pay3_apply]
  unfold k0_pay5 k0_pay6 k0_pay2
  rw [window_bcast_apply, row_bcast_apply x1 8 (by decide), shapeCast_self]
  have hp := p.isLt
  have b0 : ∀ d, d ≤ 2 → d + (posRow p).val < 58 := fun d hd => by show d + p.val / 56 < 58; omega
  have b1 : ∀ d, d ≤ 2 → d + (posCol p).val < 58 := fun d hd => by show d + p.val % 56 < 58; omega
  rw [window_ld_apply x0 0 0 _ a (posRow p) (posCol p) (b0 0 (by decide)) (b1 0 (by decide)),
    window_ld_apply x0 0 1 _ a (posRow p) (posCol p) (b0 0 (by decide)) (b1 1 (by decide)),
    window_ld_apply x0 0 2 _ a (posRow p) (posCol p) (b0 0 (by decide)) (b1 2 (by decide)),
    window_ld_apply x0 1 0 _ a (posRow p) (posCol p) (b0 1 (by decide)) (b1 0 (by decide)),
    window_ld_apply x0 1 1 _ a (posRow p) (posCol p) (b0 1 (by decide)) (b1 1 (by decide)),
    window_ld_apply x0 1 2 _ a (posRow p) (posCol p) (b0 1 (by decide)) (b1 2 (by decide)),
    window_ld_apply x0 2 0 _ a (posRow p) (posCol p) (b0 2 (by decide)) (b1 0 (by decide)),
    window_ld_apply x0 2 1 _ a (posRow p) (posCol p) (b0 2 (by decide)) (b1 1 (by decide)),
    window_ld_apply x0 2 2 _ a (posRow p) (posCol p) (b0 2 (by decide)) (b1 2 (by decide))]
  show _ = (∑ k : Fin 9, x0 (ix3 a (tapRow p k) (tapCol p k)) * x1 (ix2 k e)) + x2 (ix2 (0 : Fin 1) e)
  rw [sum_nine]
  have tap : ∀ (k : Fin 9) (kk : Nat) (hkk : kk = k.val) (di dj : Nat) (hdi : di = kk / 3) (hdj : dj = kk % 3)
      (h1 : di + (posRow p).val < 58) (h2 : dj + (posCol p).val < 58),
      (ix3 a (⟨di + (posRow p).val, h1⟩ : Fin 58) (⟨dj + (posCol p).val, h2⟩ : Fin 58) : S16x58x58.Idx) = ix3 a (tapRow p k) (tapCol p k) := by
    intro k kk hkk di dj hdi hdj h1 h2
    subst hkk hdi hdj
    funext x
    apply Fin.ext
    match x with
    | ⟨0, _⟩ => rfl
    | ⟨1, _⟩ => show k.val / 3 + p.val / 56 = p.val / 56 + k.val / 3; omega
    | ⟨2, _⟩ => show k.val % 3 + p.val % 56 = p.val % 56 + k.val % 3; omega
  rw [tap 0 0 rfl 0 0 rfl rfl, tap 1 1 rfl 0 1 rfl rfl, tap 2 2 rfl 0 2 rfl rfl, tap 3 3 rfl 1 0 rfl rfl, tap 4 4 rfl 1 1 rfl rfl,
    tap 5 5 rfl 1 2 rfl rfl, tap 6 6 rfl 2 0 rfl rfl, tap 7 7 rfl 2 1 rfl rfl, tap 8 8 rfl 2 2 rfl rfl]
  rfl

end Cert.KernelIdeal.Body

end
-- ==== Proof.KernelArray.lean ====
/-
  From the grid's 64 output blocks to the whole output array.

  Grid point `t` takes images `16·t … 16·t + 15` of the stack of 1024 padded images whole, the matrix and the bias row whole,
  and writes the results of those sixteen images. The map treats every image on its own, so what point `t` writes is rows
  `16·t … 16·t + 15` of the map applied to the whole stack; the 64 blocks tile the 1024 rows, so after the last point the
  output array IS the map of the stack.
-/
import proofs.«122599_j46059229282884_1_alg».proof.Proof.KernelBody
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx Cert.Unfold3
open Idealize.ShloMosaic.Pipeline (Dat)

variable (m : (ℓ : Loc nD τ sig) → Buf (Elt Ideal) ℓ) (ρ : Dev nD → PrngReg)

/-- The printed index maps, decided over the 64 grid points: point `t` is at block `t` of the image axis for the images
    and for the output, and at block 0 everywhere else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The images' block at point `t` is images `16·t … 16·t + 15` of the stack. -/
theorem read_images (c : Dev nD) (t : Fin cfg0.N) (a : Fin 16) (r s : Fin 58) (hb : t.val * 16 + a.val < 1024) :
    iblk m c 0 t (ix3 a r s) = V m c main_v1 (ix3 (⟨t.val * 16 + a.val, hb⟩ : Fin 1024) r s) := by
  obtain ⟨e0, e1, e2, -⟩ := idx_facts t
  show V m c main_v1 (((cfg0.win 0).blk t).view.emb (ix3 a r s)) = V m c main_v1 _
  refine congrArg (V m c main_v1) (funext fun x => Fin.ext ?_)
  match x with
  | ⟨0, _⟩ => show win0_0.index t (0 : Fin 3) * 16 + 1 * a.val = t.val * 16 + a.val; rw [e0]; omega
  | ⟨1, _⟩ => show win0_0.index t (1 : Fin 3) * 58 + 1 * r.val = r.val; rw [e1]; omega
  | ⟨2, _⟩ => show win0_0.index t (2 : Fin 3) * 58 + 1 * s.val = s.val; rw [e2]; omega

/-- The matrix's block at every point is the whole matrix. -/
theorem read_matrix (c : Dev nD) (t : Fin cfg0.N) : (iblk m c 1 t : S9x64.Idx → EReal) = V m c main_arg1 := by
  obtain ⟨-, -, -, e0, e1, -⟩ := idx_facts t
  funext y
  show V m c main_arg1 (((cfg0.win 1).blk t).view.emb y) = V m c main_arg1 y
  refine congrArg (V m c main_arg1) (funext fun x => Fin.ext ?_)
  match x with
  | ⟨0, _⟩ => show win0_1.index t (0 : Fin 2) * 9 + 1 * (y 0).val = (y 0).val; rw [e0]; omega
  | ⟨1, _⟩ => show win0_1.index t (1 : Fin 2) * 64 + 1 * (y 1).val = (y 1).val; rw [e1]; omega

/-- The bias row's block at every point is the whole row. -/
theorem read_bias (c : Dev nD) (t : Fin cfg0.N) : (iblk m c 2 t : S1x64.Idx → EReal) = V m c main_v2 := by
  obtain ⟨-, -, -, -, -, e0, e1, -⟩ := idx_facts t
  funext y
  show V m c main_v2 (((cfg0.win 2).blk t).view.emb y) = V m c main_v2 y
  refine congrArg (V m c main_v2) (funext fun x => Fin.ext ?_)
  match x with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- WHAT POINT `t` WRITES BACK is block `t` of the map of the whole stack. -/
theorem flushed_eq (c : Dev nD) (t : Fin cfg0.N) :
    (dats m 0 c).flushed 3 t
      = ((cfg0.win 3).blk t).view.read (Elt Ideal) (patchLinearRows 1024 (V m c main_v1) (V m c main_arg1) (V m c main_v2)) := by
  show (cfg0.win 3).cut (grid0.coords t) ((dats m 0 c).after 3 t) = _
  rw [after0_3, Body.block_eq]
  obtain ⟨-, -, -, -, -, -, -, e0, e1, e2⟩ := idx_facts t
  funext j
  show patchLinearRows 16 (iblk m c 0 t) (iblk m c 1 t) (iblk m c 2 t) j
    = patchLinearRows 1024 (V m c main_v1) (V m c main_arg1) (V m c main_v2) (((cfg0.win 3).blk t).view.emb j)
  exact rows_block (V m c main_v1) (V m c main_arg1) (V m c main_v2) (iblk m c 0 t) (iblk m c 1 t) (iblk m c 2 t) t.val
    (fun a r s hb => read_images m c t a r s hb) (read_matrix m c t) (read_bias m c t) j _
    (by show win0_3.index t (0 : Fin 3) * 16 + 1 * (j 0).val = t.val * 16 + (j 0).val; rw [e0]; omega)
    (by show win0_3.index t (1 : Fin 3) * 3136 + 1 * (j 1).val = (j 1).val; rw [e1]; omega)
    (by show win0_3.index t (2 : Fin 3) * 64 + 1 * (j 2).val = (j 2).val; rw [e2]; omega)

/-- An index of the output array is in point `t`'s block iff each coordinate is in the block's range on its axis. -/
theorem mem_blk (t : Fin cfg0.N) (i : S1024x3136x64.Idx) :
    i ∈ ((cfg0.win 3).blk t).view.set ↔ ∀ a : Fin 3, win0_3.index t a * S16x3136x64.size a ≤ (i a).val
      ∧ (i a).val < win0_3.index t a * S16x3136x64.size a + S16x3136x64.size a := by
  show i ∈ ((View.whole main_v3).slice (win0_3.rect t)).set ↔ _
  rw [View.set_slice_whole, Rect.mem_set_unit]
  exact Iff.rfl

/-- Row `r` of the output array is written by point `r / 16`: the 64 blocks cover the array. -/
theorem cover (i : S1024x3136x64.Idx) : ∃ t : Fin cfg0.N, (cfg0.win 3).flush t = true ∧ i ∈ ((cfg0.win 3).blk t).view.set := by
  have h0 : (i 0).val < 1024 := (i 0).isLt
  have h1 : (i 1).val < 3136 := (i 1).isLt
  have h2 : (i 2).val < 64 := (i 2).isLt
  have hN : cfg0.N = 64 := N_0
  have ht : (i 0).val / 16 < cfg0.N := by rw [hN]; omega
  obtain ⟨-, -, -, -, -, -, -, e0, e1, e2⟩ := idx_facts ⟨(i 0).val / 16, ht⟩
  refine ⟨⟨(i 0).val / 16, ht⟩, flush0_3 _, ?_⟩
  rw [mem_blk]
  intro a
  match a with
  | ⟨0, _⟩ =>
    show win0_3.index ⟨(i 0).val / 16, ht⟩ (0 : Fin 3) * 16 ≤ (i 0).val ∧ (i 0).val < win0_3.index ⟨(i 0).val / 16, ht⟩ (0 : Fin 3) * 16 + 16
    rw [e0]; show (i 0).val / 16 * 16 ≤ (i 0).val ∧ (i 0).val < (i 0).val / 16 * 16 + 16; omega
  | ⟨1, _⟩ =>
    show win0_3.index ⟨(i 0).val / 16, ht⟩ (1 : Fin 3) * 3136 ≤ (i 1).val ∧ (i 1).val < win0_3.index ⟨(i 0).val / 16, ht⟩ (1 : Fin 3) * 3136 + 3136
    rw [e1]; omega
  | ⟨2, _⟩ =>
    show win0_3.index ⟨(i 0).val / 16, ht⟩ (2 : Fin 3) * 64 ≤ (i 2).val ∧ (i 2).val < win0_3.index ⟨(i 0).val / 16, ht⟩ (2 : Fin 3) * 64 + 64
    rw [e2]; omega

/-- THE OUTPUT ARRAY after the run is the map of the stack of padded images, the matrix and the bias row as the region
    finds them. -/
theorem final (c : Dev nD) :
    (dats m 0 c).arrAt 3 cfg0.N = patchLinearRows 1024 (V m c main_v1) (V m c main_arg1) (V m c main_v2) :=
  (dats m 0 c).arrAt_eq_of_cover 3 _ (fun t _ => flushed_eq m c t) cover

end Cert.KernelIdeal.Arr

end
-- ==== Proof.Flatten.lean ====
/-
  The same map on a flat stack of images and on the 16×64 batch.

  Numbering the 16×64 images by one index `r = 64·n + c`, writing the bias as a one-row matrix, mapping the stack and
  splitting the image index of the result again gives the map on the batch: reshaping only renumbers the images, and
  the map treats each image on its own.
-/
import proofs.«122599_j46059229282884_1_alg».proof.Proof.Spec
import Idealize.ShloMosaic.Lib.Pipeline.Value

noncomputable section

namespace Cert.Unfold3

open Idealize.ShloMosaic Idealize.ShloMosaic.ValueIdx

/-- Image `r = 64·n + c` of the flattened batch is image `(n, c)` of the batch. -/
theorem images_flat_apply (xp : (⟨4, ![16, 64, 58, 58]⟩ : Shape).Idx → EReal)
    (h : (⟨4, ![16, 64, 58, 58]⟩ : Shape).ShapeCasts ⟨3, ![1024, 58, 58]⟩) (n : Fin 16) (c : Fin 64) (r s : Fin 58)
    (hb : n.val * 64 + c.val < 1024) :
    shapeCast (⟨3, ![1024, 58, 58]⟩ : Shape) xp h (ix3 (⟨n.val * 64 + c.val, hb⟩ : Fin 1024) r s) = xp (ix4 n c r s) :=
  shapeCast_apply xp h (ix3 (⟨n.val * 64 + c.val, hb⟩ : Fin 1024) r s) (ix4 n c r s) (by
    rw [Shape.rowMajor_val_four, Shape.rowMajor_val_three]
    show ((n.val * 64 + c.val) * 58 + r.val) * 58 + s.val = ((n.val * 64 + c.val) * 58 + r.val) * 58 + s.val
    rfl)

/-- The bias as a one-row matrix reads the bias. -/
theorem bias_row_apply (b : (⟨1, ![64]⟩ : Shape).Idx → EReal) (h : (⟨1, ![64]⟩ : Shape).ShapeCasts ⟨2, ![1, 64]⟩) (e : Fin 64) :
    shapeCast (⟨2, ![1, 64]⟩ : Shape) b h (ix2 (0 : Fin 1) e) = b (ix1 e) :=
  shapeCast_apply b h (ix2 (0 : Fin 1) e) (ix1 e) (by
    rw [Shape.rowMajor_val_one, Shape.rowMajor_val_two]
    show e.val = 0 * 64 + e.val
    omega)

/-- THE MAP ON THE FLAT STACK, its image index split again, is the map on the batch. -/
theorem rows_to_batch (xp : (⟨4, ![16, 64, 58, 58]⟩ : Shape).Idx → EReal) (W : (⟨2, ![9, 64]⟩ : Shape).Idx → EReal)
    (b : (⟨1, ![64]⟩ : Shape).Idx → EReal)
    (h1 : (⟨4, ![16, 64, 58, 58]⟩ : Shape).ShapeCasts ⟨3, ![1024, 58, 58]⟩)
    (h2 : (⟨1, ![64]⟩ : Shape).ShapeCasts ⟨2, ![1, 64]⟩)
    (h3 : (⟨3, ![1024, 3136, 64]⟩ : Shape).ShapeCasts ⟨4, ![16, 64, 3136, 64]⟩) :
    shapeCast (⟨4, ![16, 64, 3136, 64]⟩ : Shape)
        (patchLinearRows 1024 (shapeCast (⟨3, ![1024, 58, 58]⟩ : Shape) xp h1) W (shapeCast (⟨2, ![1, 64]⟩ : Shape) b h2)) h3
      = patchLinear xp W b := by
  funext i
  obtain ⟨n, c, p, e, rfl⟩ : ∃ (n : Fin 16) (c : Fin 64) (p : Fin 3136) (e : Fin 64), i = ix4 n c p e := ⟨i 0, i 1, i 2, i 3, eq_ix4 i⟩
  have hn := n.isLt; have hc := c.isLt
  have hb : n.val * 64 + c.val < 1024 := by omega
  refine (shapeCast_apply _ h3 (ix4 n c p e) (ix3 (⟨n.val * 64 + c.val, hb⟩ : Fin 1024) p e) (by
    rw [Shape.rowMajor_val_three, Shape.rowMajor_val_four]
    show ((n.val * 64 + c.val) * 3136 + p.val) * 64 + e.val = ((n.val * 64 + c.val) * 3136 + p.val) * 64 + e.val
    rfl)).trans ?_
  show (∑ k : Fin 9, shapeCast (⟨3, ![1024, 58, 58]⟩ : Shape) xp h1 (ix3 (⟨n.val * 64 + c.val, hb⟩ : Fin 1024) (tapRow p k) (tapCol p k)) * W (ix2 k e))
      + shapeCast (⟨2, ![1, 64]⟩ : Shape) b h2 (ix2 (0 : Fin 1) e)
    = (∑ k : Fin 9, xp (ix4 n c (tapRow p k) (tapCol p k)) * W (ix2 k e)) + b (ix1 e)
  rw [bias_row_apply]
  refine congrArg (· + _) (Finset.sum_congr rfl fun k _ => ?_)
  rw [images_flat_apply]

end Cert.Unfold3

end
-- ==== Proof.KernelHost.lean ====
/-
  The kernel's program around its one region, and its result.

  Before the region the program pads the argument images by one zero pixel on each side of the two spatial axes and
  renumbers the 16×64 padded images as a stack of 1024, and writes the bias as a one-row matrix; the region maps the stack
  (`Arr.final`); after the region the program splits the image index of the result again. So the program's result is
  `patchLinear` of the padded images, the matrix and the bias (`Flatten.rows_to_batch`).
-/
import proofs.«122599_j46059229282884_1_alg».proof.Proof.KernelArray
import proofs.«122599_j46059229282884_1_alg».proof.Proof.Flatten
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem Cert.Unfold3
open Idealize.ShloMosaic.Pipeline (Dat)

variable (m : (ℓ : Loc nD τ sig) → Buf (Elt Ideal) ℓ) (ρ : Dev nD → PrngReg)

/-- The batch of padded images: the argument images with one pixel of zero (the integer 0 converted) on every side of the
    two spatial axes. -/
abbrev padded (c : Dev nD) : S16x64x58x58.Idx → EReal :=
  pad S16x64x58x58 ![0, 0, 1, 1] ![0, 0, 1, 1] ![0, 0, 0, 0] (m ((c : Thread nD τ).loc main_arg0))
    (sitofp (F := Ideal) .f32 (constantI S_ 32 0#32)) pads_S16x64x56x56_S16x64x58x58_000_000_110_110 h_S_

/-- The region finds, as its first operand, the padded images renumbered as a stack of 1024. -/
theorem V_images (c : Dev nD) :
    (V m c main_v1 : S1024x58x58.Idx → EReal) = shapeCast S1024x58x58 (padded m c) shapeCasts_S16x64x58x58_S1024x58x58 := by
  dsimp only [V, V0]
  simp only [hostOps0, hostOps0_1, hostOps0_2, List.flatten_cons, List.flatten_nil, List.append_nil, List.cons_append, List.nil_append]
  after_results
  rfl

/-- The region finds, as its third operand, the bias as a one-row matrix. -/
theorem V_bias (c : Dev nD) :
    (V m c main_v2 : S1x64.Idx → EReal) = shapeCast S1x64 (m ((c : Thread nD τ).loc main_arg2)) shapeCasts_S64_S1x64 := by
  dsimp only [V, V0]
  simp only [hostOps0, hostOps0_1, hostOps0_2, List.flatten_cons, List.flatten_nil, List.append_nil, List.cons_append, List.nil_append]
  after_results
  rfl

/-- The one operation after the region splits the image index of the region's output array. -/
theorem tail_eq (c : Dev nD) :
    Pipeline.afterTail₀ cfgs (dats m) 0 (V0 m) [hostOps1] c main_v4
      = shapeCast S16x64x3136x64 ((dats m 0 c).arrAt 3 cfg0.N) shapeCasts_S1024x3136x64_S16x64x3136x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [hw]
  rfl

/-- THE PROGRAM'S RESULT: `patchLinear` of the padded images, the matrix and the bias. -/
theorem result_eq (c : Dev nD) :
    Pipeline.afterTail₀ cfgs (dats m) 0 (V0 m) [hostOps1] c main_v4
      = patchLinear (padded m c) (m ((c : Thread nD τ).loc main_arg1)) (m ((c : Thread nD τ).loc main_arg2)) := by
  rw [tail_eq m c, Arr.final m c, V_images m c, V_bias m c, V_main_arg1 m c]
  exact rows_to_batch (padded m c) (m ((c : Thread nD τ).loc main_arg1)) (m ((c : Thread nD τ).loc main_arg2)) _ _ _

/-- The run of the kernel's program: every weakly fair execution terminates with the result at `patchLinear` of the padded
    images, the matrix and the bias, and the three arguments unchanged. -/
theorem run : θ_run defs (onTc (τ := τ) (main (F := Ideal))) ⟨m, fun _ => 0, ρ⟩ fun r => ∀ c : Dev nD,
      r.2.mem ((c.tc : Thread nD τ).loc main_v4)
        = patchLinear (padded m c) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Host

end
-- ==== Proof.lean ====
/-
  The kernel computes the 3×3 unfold of zero-padded 56×56 images followed by a linear map of each 9-pixel patch to 64
  channels plus a bias; the reference computes the same by stacking nine shifted slices and contracting against the matrix.

  Both programs end with

      out[n, c, p, e] = (∑ k < 9, xpad[n, c, p / 56 + k / 3, p % 56 + k % 3] · W[k, e]) + b[e]

  (`Unfold3.patchLinear`): the kernel adds the nine products from the left, sixteen images at a grid point, and its 64
  blocks tile the output (`KernelIdeal.Host.run`); the reference's `dot_general` is the sum over the nine taps, and its
  patches array at tap `k` is the padded image shifted by `(k / 3, k % 3)` (`ReferenceIdeal.RefValue.reference_eq`).
  Addition on the extended reals is commutative and associative, so no finiteness is used: the precondition is not opened.
  The idealized kernel is the kernel's own text read over the extended reals, so `preserves` is `True`.
-/
import proofs.«122599_j46059229282884_1_alg».proof.Defs
import proofs.«122599_j46059229282884_1_alg».proof.Proof.Gen.Kernel
import proofs.«122599_j46059229282884_1_alg».proof.Proof.Gen.Kernel.Skeleton
import proofs.«122599_j46059229282884_1_alg».proof.Proof.Gen.Kernel.Launch
import proofs.«122599_j46059229282884_1_alg».proof.Proof.Gen.Kernel.Points
import proofs.«122599_j46059229282884_1_alg».proof.Proof.Gen.Kernel.Frame
import proofs.«122599_j46059229282884_1_alg».proof.Proof.Gen.KernelIdeal
import proofs.«122599_j46059229282884_1_alg».proof.Proof.Gen.KernelIdeal.Skeleton
import proofs.«122599_j46059229282884_1_alg».proof.Proof.Gen.KernelIdeal.Launch
import proofs.«122599_j46059229282884_1_alg».proof.Proof.Gen.KernelIdeal.Points
import proofs.«122599_j46059229282884_1_alg».proof.Proof.Gen.KernelIdeal.Frame
import proofs.«122599_j46059229282884_1_alg».proof.Proof.Gen.ReferenceIdeal
import proofs.«122599_j46059229282884_1_alg».proof.Proof.Gen.Pre_finite_inputs
import proofs.«122599_j46059229282884_1_alg».proof.Proof.Gen.ReferenceIdeal.Run
import proofs.«122599_j46059229282884_1_alg».proof.Proof.Gen.ReferenceIdeal.Read
import proofs.«122599_j46059229282884_1_alg».proof.Proof.RefValue
import proofs.«122599_j46059229282884_1_alg».proof.Proof.KernelHost
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the three arguments, both programs end at `patchLinear` of the
    padded images, the matrix and the bias. -/
theorem algebraic : Cert.algebraic_KernelIdeal_ReferenceIdeal := by
  intro m ρ m' ρ' _ hagree
  refine ⟨fun c => Cert.Unfold3.patchLinear (Cert.KernelIdeal.Host.padded m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.reference_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
